-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x64 : Shape := ⟨3, ![4, 4096, 64]⟩
abbrev S_ : Shape := ⟨0, ![]⟩

class Facts : Prop where
  bcast_S_S4x4096x64 : S_.BroadcastsInDim S4x4096x64 (![] : Fin 0 → Fin S4x4096x64.rank)
  reducesTo_S4x4096x64_S_d0_1_2 : S4x4096x64.ReducesTo [0, 1, 2] S_
  h_S_ : 0 < S_.numel

variable [Facts]

def fn {F : FTy → Type} [FloatOps F] (main_arg0 : FVec F S4x4096x64 .f32) (main_arg1 : FVec F S4x4096x64 .f32) : IVec S_ 1 :=
  let main_v0 : FVec F S4x4096x64 .f32 := Host.absf main_arg0
  let main_cst : FVec F S_ .f32 := constant S_ .f32 0x7F800000#32
  let main_v1 : FVec F S4x4096x64 .f32 := broadcastInDim S4x4096x64 ![] bcast_S_S4x4096x64 main_cst
  let main_v2 : IVec S4x4096x64 1 := cmpf .olt main_v0 main_v1
  let main_c : IVec S_ 1 := constantI S_ 1 1#1
  let main_v3 : IVec S_ 1 := (fun x v => Host.reduce IntOp.andi x v reducesTo_S4x4096x64_S_d0_1_2 h_S_) main_v2 main_c
  let main_v4 : FVec F S4x4096x64 .f32 := Host.absf main_arg1
  let main_cst_0 : FVec F S_ .f32 := constant S_ .f32 0x7F800000#32
  let main_v5 : FVec F S4x4096x64 .f32 := broadcastInDim S4x4096x64 ![] bcast_S_S4x4096x64 main_cst_0
  let main_v6 : IVec S4x4096x64 1 := cmpf .olt main_v4 main_v5
  let main_c_1 : IVec S_ 1 := constantI S_ 1 1#1
  let main_v7 : IVec S_ 1 := (fun x v => Host.reduce IntOp.andi x v reducesTo_S4x4096x64_S_d0_1_2 h_S_) main_v6 main_c_1
  let main_v8 : IVec S_ 1 := andi main_v3 main_v7
  main_v8
-- ==== Kernel.lean ====
abbrev S4x4096x64 : Shape := ⟨3, ![4, 4096, 64]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S1x256x64 : Shape := ⟨3, ![1, 256, 64]⟩
abbrev S1x4096x64 : Shape := ⟨3, ![1, 4096, 64]⟩
abbrev S1x1x4096 : Shape := ⟨3, ![1, 1, 4096]⟩
abbrev S1x256x4096 : Shape := ⟨3, ![1, 256, 4096]⟩
abbrev S256x64 : Shape := ⟨2, ![256, 64]⟩
abbrev S4096x64 : Shape := ⟨2, ![4096, 64]⟩
abbrev S256 : Shape := ⟨1, ![256]⟩
abbrev S256x1 : Shape := ⟨2, ![256, 1]⟩
abbrev S256x4096 : Shape := ⟨2, ![256, 4096]⟩
abbrev S1x4096 : Shape := ⟨2, ![1, 4096]⟩

abbrev nBuf : Space → Nat
  | .hbm => 8
  | .vmem => 8
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S4x4096x64, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S4x1x4096, .f32⟩
  | .hbm, ⟨7, _⟩ => ⟨S4x4096x4096, .f32⟩
  | .local _ .vmem, ⟨0, _⟩ => ⟨S1x256x64, .f32⟩
  | .local _ .vmem, ⟨1, _⟩ => ⟨S1x256x64, .f32⟩
  | .local _ .vmem, ⟨2, _⟩ => ⟨S1x4096x64, .f32⟩
  | .local _ .vmem, ⟨3, _⟩ => ⟨S1x4096x64, .f32⟩
  | .local _ .vmem, ⟨4, _⟩ => ⟨S1x1x4096, .f32⟩
  | .local _ .vmem, ⟨5, _⟩ => ⟨S1x1x4096, .f32⟩
  | .local _ .vmem, ⟨6, _⟩ => ⟨S1x256x4096, .f32⟩
  | .local _ .vmem, ⟨7, _⟩ => ⟨S1x256x4096, .f32⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  reducesTo_S4x4096x64_S4x4096_d2 : S4x4096x64.ReducesTo [2] S4x4096
  h_S_ : 0 < S_.numel
  bcast_S4x4096_S4x4096x1_0_1 : S4x4096.BroadcastsInDim S4x4096x1 (![0, 1] : Fin 2 → Fin S4x4096x1.rank)
  transposes_S4x4096x1_S4x1x4096_0_2_1 : S4x4096x1.Transposes [0, 2, 1] S4x1x4096
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  reduces_S256x64_S256 : S256x64.Reduces [1] S256
  shapeCasts_S256_S256x1 : S256.ShapeCasts S256x1
  bitsLt_bf16_f32 : FTy.bits .bf16 < FTy.bits .f32
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  broadcasts_S256x1_S256x4096 : S256x1.Broadcasts S256x4096
  broadcasts_S1x4096_S256x4096 : S1x4096.Broadcasts S256x4096
  reduces_S256x4096_S256 : S256x4096.Reduces [1] S256
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  shapeCasts_S256x4096_S1x256x4096 : S256x4096.ShapeCasts S1x256x4096
  dot_S256x64_S4096x64_S256x4096_1_1_0_0_n_n_wf : DotDims.WF S256x64 S4096x64 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S4x4096x64.size a
  hwx0_0 : ∀ i : grid0.Coords, EltTy.bits .f32 = 32 ∨ (Rect.block (s := S4x4096x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S4x4096x64.size a
  hwx0_1 : ∀ i : grid0.Coords, EltTy.bits .f32 = 32 ∨ (Rect.block (s := S4x4096x64) S1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096.size a ≤ S4x1x4096.size a
  hwx0_2 : ∀ i : grid0.Coords, EltTy.bits .f32 = 32 ∨ (Rect.block (s := S4x1x4096) S1x1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x4096.size a ≤ S4x4096x4096.size a
  hwx0_3 : ∀ i : grid0.Coords, EltTy.bits .f32 = 32 ∨ (Rect.block (s := S4x4096x4096) S1x256x4096.size (cc0_transform_3 i) (hinb0_3 i)).WholeWords (EltTy.packing .f32)

variable [Facts₀]

def dot_S256x64_S4096x64_S256x4096_1_1_0_0_n_n : DotDims S256x64 S4096x64 S256x4096 where
  lhsContracting := [1]
  rhsContracting := [1]
  lhsNonContracting := [0]
  rhsNonContracting := [0]
  lhsBatch := []
  rhsBatch := []
  wf := dot_S256x64_S4096x64_S256x4096_1_1_0_0_n_n_wf

abbrev win0_0 : Pipeline.Window sig grid0 :=
  Pipeline.Window.ofSpec (Memref.whole main_arg0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x64 : Shape := ⟨3, ![4, 4096, 64]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S4x4096x64, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S4x4096x64, .f32⟩
  | .hbm, ⟨7, _⟩ => ⟨S_, .f32⟩
  | .hbm, ⟨8, _⟩ => ⟨S4x4096, .f32⟩
  | .hbm, ⟨9, _⟩ => ⟨S4x1x4096, .f32⟩
  | .hbm, ⟨10, _⟩ => ⟨S4x4096x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S4x4096x4096, .f32⟩
  | .hbm, ⟨23, _⟩ => ⟨S_, .f32⟩
  | .hbm, ⟨24, _⟩ => ⟨S4x4096x4096, .f32⟩
  | .hbm, ⟨25, _⟩ => ⟨S4x4096x4096, .f32⟩
  | .hbm, ⟨26, _⟩ => ⟨S_, .f32⟩
  | .hbm, ⟨27, _⟩ => ⟨S4x4096, .f32⟩
  | .hbm, ⟨28, _⟩ => ⟨S_, .f32⟩
  | .hbm, ⟨29, _⟩ => ⟨S4x4096, .f32⟩
  | .hbm, ⟨30, _⟩ => ⟨S4x4096, .f32⟩
  | .hbm, ⟨31, _⟩ => ⟨S4x4096x1, .f32⟩
  | .hbm, ⟨32, _⟩ => ⟨S4x4096x4096, .f32⟩
  | .hbm, ⟨33, _⟩ => ⟨S4x4096x4096, .f32⟩
  | .hbm, ⟨34, _⟩ => ⟨S4x4096x4096, .f32⟩
  | .hbm, ⟨35, _⟩ => ⟨S_, .f32⟩
  | .hbm, ⟨36, _⟩ => ⟨S4x4096, .f32⟩
  | .hbm, ⟨37, _⟩ => ⟨S4x4096x1, .f32⟩
  | .hbm, ⟨38, _⟩ => ⟨S4x4096x4096, .f32⟩
  | .hbm, ⟨39, _⟩ => ⟨S4x4096x4096, .f32⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  reducesTo_S4x4096x64_S4x4096_d2 : S4x4096x64.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  bcast_S_S4x4096 : S_.BroadcastsInDim S4x4096 (![] : Fin 0 → Fin S4x4096.rank)
  dot_S4x4096x64_S4x4096x64_S4x4096x4096_2_2_1_1_0_0_wf : DotDims.WF S4x4096x64 S4x4096x64 S4x4096x4096 [2] [2] [1] [1] [0] [0]

variable [Facts₀]

def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf

class Facts : Prop extends Facts₀ where

variable [Facts]
-- ==== Proof.LibColumnCast.lean ====
/-
  A vector stood up as a column: an `[a]` array cast to `[a, 1]` reads, at `(i, u)`, the operand at `i`, whatever
  the unit coordinate `u`.  (The trailing-axis companion of the library's leading-axis form `shapeCast_a_1a_apply`:
  what `keepdims=True` does to a row reduction's result.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`: both indices have row-major position
    `i`, since the unit coordinate is `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ValueIdx
-- ==== Proof.LibBroadcastColumn.lean ====
/-
  One column broadcast over many: a `[a, 1]` array broadcast to `[a, b]` reads, at `(p, c)`, the operand's one
  column at row `p`.  (The companion of the library's row form `broadcastTo_1b_ab_apply`: a per-row bias added to
  every column of a matrix.)
-/
import Idealize.ShloMosaic.Lib.Pipeline.Value
import Idealize.ShloMosaic.Lib.ValueIdx

namespace Idealize.ShloMosaic.ValueIdx

variable {α : Type}

/-- A `[a, 1]` array broadcast to `[a, b]` reads, at `(p, c)`, the operand's one column at `p`: the row axis is kept
    (or has extent one, and then `p = 0`), the unit column axis reads its only index. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelPayload.lean ====
/-
  The kernel body's one store, read at an index.

  The body holds a query tile `x0` ([1, 256, 64]), the batch's whole key slice `x1` ([1, 4096, 64]) and the
  row of the keys' squared norms `x2` ([1, 1, 4096]). For row `p` of the tile and key `j` it forms
    `w p j = exp ((0 - √(max ((∑ d, x0 p d · x0 p d) + x2 j - 2 · ∑ d, x0 p d · x1 j d) 0)) · 0.125)`
  and stores `w p j · (1 / ∑ j', w p j')` at `(0, p, j)`. Everything but three pieces of that expression is
  pointwise, so at an index it is the expression of the elements by definition; the three pieces are the tile's
  row sums of squares kept as a column and broadcast over the keys, the matrix product of the tile with the key slice
  over the feature axis (its bf16 casts are the identity on the extended reals), and the row sum of the weights kept
  as a column. Each is read at an index by one small lemma; the leading unit axis of a block is dropped and put back
  by shape casts.
-/
import proofs.«419090_j3925600108624_3_alg».proof.Proof.Gen.KernelIdeal.Skeleton
import Idealize.ShloMosaic.Lib.ValueIdx
import Idealize.ShloMosaic.Lib.ValueLayout
import Idealize.ShloMosaic.PureOps.Ideal.Laws
import proofs.«419090_j3925600108624_3_alg».proof.Proof.LibColumnCast
import proofs.«419090_j3925600108624_3_alg».proof.Proof.LibBroadcastColumn

noncomputable section

namespace Cert.KernelIdeal.Payload

open Cert.KernelIdeal Cert.KernelIdeal.Gen Idealize.ShloMosaic Idealize.ShloMosaic.ValueIdx

/-! ## Row reductions of a matrix, kept as a column -/

/-- Row `p` of a matrix with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The sum of a matrix over its columns, at row `p`, is the sum of that row's entries. -/
theorem rowSum_apply {a b : ℕ} (E : FVec Ideal ⟨2, ![a, b]⟩ .f32) (h : (⟨2, ![a, b]⟩ : Shape).Reduces [1] (⟨1, ![a]⟩ : Shape))
    (p : Fin a) :
    multiReduction .add [1] ⟨1, ![a]⟩ E 0x00000000#32 h (.inl rfl) rfl (ix1 p) = ∑ k : Fin b, E (ix2 p k) :=
  (Ideal.multiReduction_add_single E 0x00000000#32 h (.inl rfl) rfl (ix1 p)).trans
    (Finset.sum_congr rfl fun k _ => congrArg E (lift_row h p k))

/-- A vector stood up as a column and broadcast over `c` columns reads, at `(p, j)`, the vector at `p`. -/
theorem column_bcast_apply {a c : ℕ} (r : FVec Ideal ⟨1, ![a]⟩ .f32) (hsc : (⟨1, ![a]⟩ : Shape).ShapeCasts ⟨2, ![a, 1]⟩)
    (hbc : (⟨2, ![a, 1]⟩ : Shape).Broadcasts ⟨2, ![a, c]⟩) (p : Fin a) (j : Fin c) :
    broadcastTo ⟨2, ![a, c]⟩ (shapeCast ⟨2, ![a, 1]⟩ r hsc) hbc (ix2 p j) = r (ix1 p) :=
  (broadcastTo_a1_ab_apply _ hbc p j).trans (shapeCast_a_a1_apply r hsc p 0)

/-! ## The product of the tile with the key slice -/

theorem lhs_qk_0 (i : S256x4096.Idx) (q : dot_S256x64_S4096x64_S256x4096_1_1_0_0_n_n.contr.Idx) :
    (dot_S256x64_S4096x64_S256x4096_1_1_0_0_n_n.lhsIdx i q 0).val = (i 0).val := by
  unfold DotDims.lhsIdx
  rw [dif_neg (show ¬(0 : Fin S256x64.rank) ∈ dot_S256x64_S4096x64_S256x4096_1_1_0_0_n_n.lhsBatch by decide), dif_pos (show (0 : Fin S256x64.rank) ∈ dot_S256x64_S4096x64_S256x4096_1_1_0_0_n_n.lhsNonContracting by decide)]
  rfl
theorem lhs_qk_1 (i : S256x4096.Idx) (q : dot_S256x64_S4096x64_S256x4096_1_1_0_0_n_n.contr.Idx) :
    (dot_S256x64_S4096x64_S256x4096_1_1_0_0_n_n.lhsIdx i q 1).val = (q ⟨0, by decide⟩).val :=
  dot_S256x64_S4096x64_S256x4096_1_1_0_0_n_n.lhsIdx_val_of_single rfl i q
theorem rhs_qk_0 (i : S256x4096.Idx) (q : dot_S256x64_S4096x64_S256x4096_1_1_0_0_n_n.contr.Idx) :
    (dot_S256x64_S4096x64_S256x4096_1_1_0_0_n_n.rhsIdx i q 0).val = (i 1).val := by
  unfold DotDims.rhsIdx
  rw [dif_neg (show ¬(0 : Fin S4096x64.rank) ∈ dot_S256x64_S4096x64_S256x4096_1_1_0_0_n_n.rhsBatch by decide), dif_pos (show (0 : Fin S4096x64.rank) ∈ dot_S256x64_S4096x64_S256x4096_1_1_0_0_n_n.rhsNonContracting by decide)]
  rfl
theorem rhs_qk_1 (i : S256x4096.Idx) (q : dot_S256x64_S4096x64_S256x4096_1_1_0_0_n_n.contr.Idx) :
    (dot_S256x64_S4096x64_S256x4096_1_1_0_0_n_n.rhsIdx i q 1).val = (q ⟨0, by decide⟩).val :=
  dot_S256x64_S4096x64_S256x4096_1_1_0_0_n_n.rhsIdx_val_of_single rfl i q

/-- The tile times the key slice, contracted over the 64 features, at `(p, j)`: row `p` of the tile against
    row `j` of the keys. -/
theorem qk_apply (a : FVec Ideal S256x64 .bf16) (b : FVec Ideal S4096x64 .bf16) (p : Fin 256) (j : Fin 4096) :
    matmul dot_S256x64_S4096x64_S256x4096_1_1_0_0_n_n none a b (constant S256x4096 .f32 0x00000000#32) (ix2 p j)
      = ∑ d : Fin 64, a (ix2 p d) * b (ix2 j d) := by
  simp only [matmul]
  rw [Ideal.matmul_constant_zero_apply, ← Equiv.sum_comp (ValueIdx.contrEquiv1 dot_S256x64_S4096x64_S256x4096_1_1_0_0_n_n 64 rfl rfl).symm]
  refine Finset.sum_congr rfl fun k _ => ?_
  have hk := ValueIdx.contrEquiv1_symm_val dot_S256x64_S4096x64_S256x4096_1_1_0_0_n_n 64 rfl rfl k
  have el : dot_S256x64_S4096x64_S256x4096_1_1_0_0_n_n.lhsIdx (ix2 p j) ((ValueIdx.contrEquiv1 dot_S256x64_S4096x64_S256x4096_1_1_0_0_n_n 64 rfl rfl).symm k) = ix2 p k := funext fun ax => Fin.ext (by
    match ax with
    | ⟨0, _⟩ => exact lhs_qk_0 _ _
    | ⟨1, _⟩ => exact (lhs_qk_1 _ _).trans hk)
  have er : dot_S256x64_S4096x64_S256x4096_1_1_0_0_n_n.rhsIdx (ix2 p j) ((ValueIdx.contrEquiv1 dot_S256x64_S4096x64_S256x4096_1_1_0_0_n_n 64 rfl rfl).symm k) = ix2 j k := funext fun ax => Fin.ext (by
    match ax with
    | ⟨0, _⟩ => exact rhs_qk_0 _ _
    | ⟨1, _⟩ => exact (rhs_qk_1 _ _).trans hk)
  rw [el, er]

/-! ## The weights, and the store -/

/-- The unnormalized weight of key `j` for row `p` of the tile, from the three loaded blocks. -/
def weight (x0 : Vec Ideal S1x256x64 .f32) (x1 : Vec Ideal S1x4096x64 .f32) (x2 : Vec Ideal S1x1x4096 .f32) (p : Fin 256)
    (j : Fin 4096) : EReal :=
  Ideal.exp ((Ideal.ofBits .f32 0x00000000#32
      - Ideal.sqrt (max ((∑ d : Fin 64, x0 (ix3 (0 : Fin 1) p d) * x0 (ix3 (0 : Fin 1) p d)) + x2 (ix3 (0 : Fin 1) (0 : Fin 1) j)
          - Ideal.ofBits .f32 0x40000000#32 * ∑ d : Fin 64, x0 (ix3 (0 : Fin 1) p d) * x1 (ix3 (0 : Fin 1) j d))
        (Ideal.ofBits .f32 0x00000000#32)))
    * Ideal.ofBits .f32 0x3E000000#32)

/-- Weights times the reciprocal of their row sum kept as a column, with the unit axis put back: at `(u, p, j)` the
    weight at `(p, j)` times one over the sum of row `p`. -/
theorem normalize_apply (E : FVec Ideal S256x4096 .f32) (u : Fin 1) (p : Fin 256) (j : Fin 4096) :
    shapeCast S1x256x4096
        (mulf E (broadcastTo S256x4096
          (divf (broadcast S256x1 (Scalar.ofBits .f32 0x3F800000#32))
            (shapeCast S256x1 (multiReduction .add [1] S256 E 0x00000000#32 reduces_S256x4096_S256 (.inl rfl) rfl) shapeCasts_S256_S256x1))
          broadcasts_S256x1_S256x4096))
        shapeCasts_S256x4096_S1x256x4096 (ix3 u p j)
      = E (ix2 p j) * Ideal.div (Ideal.ofBits .f32 0x3F800000#32) (∑ j' : Fin 4096, E (ix2 p j')) := by
  refine (shapeCast_ab_1ab_apply _ shapeCasts_S256x4096_S1x256x4096 u p j).trans ?_
  refine congrArg (E (ix2 p j) * ·) ?_
  refine (broadcastTo_a1_ab_apply _ broadcasts_S256x1_S256x4096 p j).trans ?_
  refine congrArg (Ideal.div (Ideal.ofBits .f32 0x3F800000#32)) ?_
  exact (shapeCast_a_a1_apply _ shapeCasts_S256_S256x1 p 0).trans (rowSum_apply E reduces_S256x4096_S256 p)

/-- THE STORE AT AN INDEX: the body's payload at `(u, p, j)` is key `j`'s weight for row `p` over the sum of row
    `p`'s weights. -/
theorem pay_apply (x0 : Vec Ideal S1x256x64 .f32) (x1 : Vec Ideal S1x4096x64 .f32) (x2 : Vec Ideal S1x1x4096 .f32) (u : Fin 1)
    (p : Fin 256) (j : Fin 4096) :
    k0_pay1 (F := Ideal) x0 x1 x2 (ix3 u p j)
      = weight x0 x1 x2 p j * Ideal.div (Ideal.ofBits .f32 0x3F800000#32) (∑ j' : Fin 4096, weight x0 x1 x2 p j') := by
  unfold k0_pay1
  dsimp only
  refine (normalize_apply _ u p j).trans ?_
  -- one weight at a time: the pointwise part is the expression of the elements by definition
  generalize hE : (exp _ : FVec Ideal S256x4096 .f32) = E
  have key : ∀ j' : Fin 4096, E (ix2 p j') = weight x0 x1 x2 p j' := fun j' => by
    subst hE
    unfold weight
    refine congrArg (fun t => Ideal.exp ((Ideal.ofBits .f32 0x00000000#32 - Ideal.sqrt (max t (Ideal.ofBits .f32 0x00000000#32))) * Ideal.ofBits .f32 0x3E000000#32)) ?_
    refine congrArg₂ (· - ·) (congrArg₂ (· + ·) ?_ ?_) (congrArg (Ideal.ofBits .f32 0x40000000#32 * ·) ?_)
    · -- the tile's row sum of squares
      refine (column_bcast_apply _ shapeCasts_S256_S256x1 broadcasts_S256x1_S256x4096 p j').trans ?_
      refine (rowSum_apply _ reduces_S256x64_S256 p).trans (Finset.sum_congr rfl fun d _ => ?_)
      exact congrArg₂ (· * ·) (shapeCast_1ab_ab_apply x0 shapeCasts_S1x256x64_S256x64 p d) (shapeCast_1ab_ab_apply x0 shapeCasts_S1x256x64_S256x64 p d)
    · -- the key's squared norm, one row broadcast over the tile's rows
      exact (broadcastTo_1b_ab_apply _ broadcasts_S1x4096_S256x4096 p j').trans (shapeCast_1ab_ab_apply x2 shapeCasts_S1x1x4096_S1x4096 (0 : Fin 1) j')
    · -- the product
      refine (qk_apply _ _ p j').trans (Finset.sum_congr rfl fun d _ => ?_)
      exact congrArg₂ (· * ·) (shapeCast_1ab_ab_apply x0 shapeCasts_S1x256x64_S256x64 p d) (shapeCast_1ab_ab_apply x1 shapeCasts_S1x4096x64_S4096x64 j' d)
  exact congrArg₂ (· * ·) (key j) (congrArg (Ideal.div (Ideal.ofBits .f32 0x3F800000#32)) (Finset.sum_congr rfl fun j' _ => key j'))

end Cert.KernelIdeal.Payload

end
-- ==== Proof.SoftmaxRow.lean ====
/-
  Softmax weights of one row of distances, on the extended reals.

  A row of distances `D k` (real numbers, `k` over a finite nonempty index type) gives scores `s k = -(D k) / 8`.
  The weights `exp (s j) / ∑ k, exp (s k)` can be computed in two ways that differ on the extended reals only
  in spelling once every `D k` is real:
  * the scores as `(0 - D k) * (1/8)` and the weight as `exp (s j) * (1 / ∑ k, exp (s k))`;
  * the scores as `(-(D k)) / 8`, every score shifted down by one real number `M` first (the row's largest
    score, but any real does), and the weight as `exp (s j - M) / (0 + ∑ k, exp (s k - M))`.
  Both are the real number `exp (s j) / ∑ k, exp (s k)`: `exp (s - M) = exp s / exp M`, and the common factor
  `1 / exp M` leaves the quotient. Real-ness is what the law needs: with an infinite distance a score is `-∞` and
  the shift by an infinite `M` has no meaning.

  Also here: the float literals the two programs spell (`0.125`, `8`, `1`, `2`, `-∞`) as extended reals; the
  predicate "is a real number" on the extended reals with its closure under sums, products, maxima, the
  clamped square root; and that the maximum of finitely many reals, folded from `-∞`, is real.
-/
import Idealize.ShloMosaic.PureOps.Ideal
import Idealize.ShloMosaic.PureOps.Ideal.Laws

noncomputable section

namespace Cert.CdistSoftmax

open Idealize.ShloMosaic

/-! ## The float literals -/

/-- `0.125` denotes the real `1/8` exactly (a power of two). -/
theorem ofBits_eighth : Ideal.ofBits .f32 0x3E000000#32 = ((1 / 8 : ℝ) : EReal) := by
  simp [Ideal.ofBits, Ideal.ieee, -EReal.coe_mul]; norm_num

/-- `8.0` denotes the real `8`. -/
theorem ofBits_eight : Ideal.ofBits .f32 0x41000000#32 = ((8 : ℝ) : EReal) := by
  simp [Ideal.ofBits, Ideal.ieee, -EReal.coe_mul]; norm_num

/-- `1.0` denotes `1`. -/
theorem ofBits_one : Ideal.ofBits .f32 0x3F800000#32 = ((1 : ℝ) : EReal) := by
  simp [Ideal.ofBits, Ideal.ieee, -EReal.coe_mul]; norm_num

/-- `2.0` denotes the real `2`. -/
theorem ofBits_two : Ideal.ofBits .f32 0x40000000#32 = ((2 : ℝ) : EReal) := by
  simp [Ideal.ofBits, Ideal.ieee, -EReal.coe_mul]; norm_num

/-- The pattern of `-∞` denotes the bottom of the extended reals. -/
theorem ofBits_neg_inf : Ideal.ofBits .f32 0xFF800000#32 = ⊥ := by
  simp [Ideal.ofBits, Ideal.ieee]

/-! ## Extended reals that are real numbers -/

/-- `x` is (the image of) a real number: neither infinity. -/
def IsReal (x : EReal) : Prop := ∃ r : ℝ, x = (r : EReal)

theorem IsReal.coe (r : ℝ) : IsReal (r : EReal) := ⟨r, rfl⟩

theorem IsReal.zero : IsReal (0 : EReal) := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of real numbers is a real number. -/
theorem IsReal.sum {ι : Type} (s : Finset ι) (f : ι → EReal) (h : ∀ k ∈ s, IsReal (f k)) : IsReal (∑ k ∈ s, f k) :=
  Finset.sum_induction f IsReal (fun _ _ => IsReal.add) IsReal.zero h

/-- An extended real strictly between the infinities is a real number. -/
theorem IsReal.of_ne {x : EReal} (hb : x ≠ ⊥) (ht : x ≠ ⊤) : IsReal x := ⟨x.toReal, (EReal.coe_toReal ht hb).symm⟩

/-- The clamped square root `√(max x 0)` of a real number is a real number (the clamp keeps the root off its
    junk value below zero). -/
theorem IsReal.sqrt_max_zero {x : EReal} (hx : IsReal x) : IsReal (Ideal.sqrt (max x 0)) := by
  obtain ⟨a, rfl⟩ := hx
  have e : max (a : EReal) 0 = ((max a 0 : ℝ) : EReal) := by
    rcases le_total a 0 with h | h
    · rw [max_eq_right h, max_eq_right (by exact_mod_cast h)]; rfl
    · rw [max_eq_left h, max_eq_left (by exact_mod_cast h)]
  rw [e, Ideal.sqrt_coe, if_neg (not_lt.2 (le_max_right a 0))]
  exact ⟨_, rfl⟩

/-- The maximum of a nonempty finite family of real numbers, folded from `-∞`, is a real number: it is above one
    of them and below `+∞`. -/
theorem IsReal.fold_max {ι : Type} [Fintype ι] [Nonempty ι] (f : ι → EReal) (hf : ∀ k, IsReal (f k)) :
    IsReal ((Finset.univ : Finset ι).fold max ⊥ f) := by
  refine IsReal.of_ne (bot_lt_iff_ne_bot.1 ?_) (lt_top_iff_ne_top.1 ?_)
  · obtain ⟨k0⟩ := (inferInstance : Nonempty ι)
    refine (Finset.lt_fold_max _).2 (Or.inr ⟨k0, Finset.mem_univ _, ?_⟩)
    obtain ⟨r, hr⟩ := hf k0; rw [hr]; exact EReal.bot_lt_coe r
  · refine (Finset.fold_max_lt _).2 ⟨bot_lt_top, fun k _ => ?_⟩
    obtain ⟨r, hr⟩ := hf k; rw [hr]; exact EReal.coe_lt_top r

/-- A finite sum of coerced reals is the coerced sum. -/
theorem coe_sum {ι : Type} (s : Finset ι) (f : ι → ℝ) : ∑ k ∈ s, (f k : EReal) = ((∑ k ∈ s, f k : ℝ) : EReal) :=
  Finset.sum_hom_rel (r := fun (x : EReal) (y : ℝ) => x = (y : EReal)) EReal.coe_zero.symm
    (fun a b c h => by rw [h, EReal.coe_add])

/-! ## The row law -/

/-- The two spellings of a row's softmax weights agree when every distance and the shift are real numbers. -/
theorem softmax_row {ι : Type} [Fintype ι] [Nonempty ι] (D : ι → EReal) (hD : ∀ k, IsReal (D k)) (M : EReal) (hM : IsReal M)
    (j : ι) :
    Ideal.div (Ideal.exp (Ideal.div (-(D j)) (Ideal.ofBits .f32 0x41000000#32) - M))
        (Ideal.ofBits .f32 0x00000000#32 + ∑ k, Ideal.exp (Ideal.div (-(D k)) (Ideal.ofBits .f32 0x41000000#32) - M))
      = Ideal.exp ((Ideal.ofBits .f32 0x00000000#32 - D j) * Ideal.ofBits .f32 0x3E000000#32)
          * Ideal.div (Ideal.ofBits .f32 0x3F800000#32)
              (∑ k, Ideal.exp ((Ideal.ofBits .f32 0x00000000#32 - D k) * Ideal.ofBits .f32 0x3E000000#32)) := by
  choose d hd using hD
  obtain ⟨μ, rfl⟩ := hM
  -- both spellings of the score are the real number -(d k) / 8
  have hs : ∀ k, Ideal.div (-(D k)) (Ideal.ofBits .f32 0x41000000#32) = ((-(d k) / 8 : ℝ) : EReal) := fun k => by
    rw [hd k, ofBits_eight, Ideal.div_coe (by norm_num : (8 : ℝ) ≠ 0), ← EReal.coe_neg, ← EReal.coe_mul]
    congr 1; ring
  have hs' : ∀ k, (0 - D k) * Ideal.ofBits .f32 0x3E000000#32 = ((-(d k) / 8 : ℝ) : EReal) :=
    fun k => by
      rw [hd k, ofBits_eighth, zero_sub, ← EReal.coe_neg, ← EReal.coe_mul]
      congr 1; ring
  simp only [hs, hs', ← EReal.coe_sub, Ideal.exp_coe, Ideal.ofBits_zero_f32, zero_add, ofBits_one]
  rw [coe_sum, coe_sum]
  have hpos1 : (∑ k, Real.exp (-(d k) / 8 - μ)) ≠ 0 :=
    (Finset.sum_pos (fun k _ => Real.exp_pos _) Finset.univ_nonempty).ne'
  have hpos2 : (∑ k, Real.exp (-(d k) / 8)) ≠ 0 :=
    (Finset.sum_pos (fun k _ => Real.exp_pos _) Finset.univ_nonempty).ne'
  rw [Ideal.div_coe hpos1, Ideal.div_coe hpos2, ← EReal.coe_mul, ← EReal.coe_mul, ← EReal.coe_mul]
  congr 1
  -- the real identity: the factor 1 / exp μ is common to the weight and to the row's sum
  have hsub : ∀ k, Real.exp (-(d k) / 8 - μ) = Real.exp (-(d k) / 8) / Real.exp μ := fun k => Real.exp_sub _ _
  simp only [hsub, ← Finset.sum_div]
  have hμ : Real.exp μ ≠ 0 := (Real.exp_pos μ).ne'
  field_simp

end Cert.CdistSoftmax

end
-- ==== Proof.Spec.lean ====
/-
  The function both programs compute, index by index, on the extended reals.

  For query array `Q` and key array `K` (both [4, 4096, 64]) and a batch `b`, query `n` and key `j`:
    `dist b n j   = √(max (‖Q b n‖² + ‖K b j‖² - 2 · ⟨Q b n, K b j⟩) 0)`   (the Euclidean distance, by expansion, clamped)
    `weight b n j = exp ((0 - dist b n j) · 0.125)`                       (the score is minus the distance over √64 = 8)
    `G (b, n, j)  = weight b n j · (1 / ∑ j', weight b n j')`              (the softmax weight of key `j` for query `n`)
  written exactly as the kernel spells it, so that the kernel's side needs no fact about the inputs; the reference
  spells the same weights as `exp (s - M) / ∑ exp (s - M)` with `s = -dist / 8` and `M` the row's largest score, and
  meets `G` by the row law once the distances are real numbers — which they are when `Q` and `K` are (every
  operation before the square root is a finite sum or product, and the root is of a number clamped at zero).
-/
import Idealize.ShloMosaic.Lib.ValueIdx
import proofs.«419090_j3925600108624_3_alg».proof.Proof.SoftmaxRow

noncomputable section

namespace Cert.CdistSoftmax

open Idealize.ShloMosaic Idealize.ShloMosaic.ValueIdx

/-- The shape of the two inputs, and of the result. -/
abbrev SIn : Shape := ⟨3, ![4, 4096, 64]⟩
abbrev SOut : Shape := ⟨3, ![4, 4096, 4096]⟩

/-- The squared norm of row `n` of batch `b`. -/
def sqNorm (X : SIn.Idx → EReal) (b : Fin 4) (n : Fin 4096) : EReal := ∑ d : Fin 64, X (ix3 b n d) * X (ix3 b n d)

/-- The inner product of query `n` with key `j`, in batch `b`. -/
def inner (Q K : SIn.Idx → EReal) (b : Fin 4) (n j : Fin 4096) : EReal := ∑ d : Fin 64, Q (ix3 b n d) * K (ix3 b j d)

/-- The distance of query `n` from key `j`: the root of the expanded squared distance, clamped at zero first. -/
def dist (Q K : SIn.Idx → EReal) (b : Fin 4) (n j : Fin 4096) : EReal :=
  Ideal.sqrt (max (sqNorm Q b n + sqNorm K b j - Ideal.ofBits .f32 0x40000000#32 * inner Q K b n j) (Ideal.ofBits .f32 0x00000000#32))

/-- The unnormalized softmax weight: the exponential of minus the distance over eight. -/
def weight (Q K : SIn.Idx → EReal) (b : Fin 4) (n j : Fin 4096) : EReal :=
  Ideal.exp ((Ideal.ofBits .f32 0x00000000#32 - dist Q K b n j) * Ideal.ofBits .f32 0x3E000000#32)

/-- The softmax weight of key `j` for query `n`, by coordinates. -/
def Gat (Q K : SIn.Idx → EReal) (b : Fin 4) (n j : Fin 4096) : EReal :=
  weight Q K b n j * Ideal.div (Ideal.ofBits .f32 0x3F800000#32) (∑ j' : Fin 4096, weight Q K b n j')

/-- The result array as one function of the two inputs. -/
def G (Q K : SIn.Idx → EReal) : SOut.Idx → EReal := fun i => Gat Q K (i 0) (i 1) (i 2)

theorem G_ix3 (Q K : SIn.Idx → EReal) (b : Fin 4) (n j : Fin 4096) : G Q K (ix3 b n j) = Gat Q K b n j := rfl

/-- With real inputs every distance is a real number. -/
theorem dist_isReal (Q K : SIn.Idx → EReal) (hQ : ∀ i, IsReal (Q i)) (hK : ∀ i, IsReal (K i)) (b : Fin 4) (n j : Fin 4096) :
    IsReal (dist Q K b n j) := by
  unfold dist
  rw [Ideal.ofBits_zero_f32]
  refine IsReal.sqrt_max_zero (((IsReal.sum _ _ fun d _ => (hQ _).mul (hQ _)).add (IsReal.sum _ _ fun d _ => (hK _).mul (hK _))).sub
    (IsReal.mul ?_ (IsReal.sum _ _ fun d _ => (hQ _).mul (hK _))))
  rw [ofBits_two]; exact IsReal.coe 2

end Cert.CdistSoftmax

end
-- ==== Proof.KernelValue.lean ====
/-
  From blocks to the array: what the kernel's run leaves in the result.

  Grid point `t = (b, qi)` stages rows `256·qi … 256·qi + 255` of batch `b` of the queries, the whole batch `b` of
  the keys and the row of batch `b`'s key norms, and writes rows `256·qi …` of batch `b` of the result. The key
  norms are not an argument: the program computes them before the region, `‖K b j‖² = 0 + ∑ d, K b j d · K b j d`,
  laid out as [4, 1, 4096]. Read through those blocks, the body's store (its value at an index is in
  KernelPayload.lean) is `G` of the two arguments at the array index the output block puts it at, and the 64 output
  blocks tile the result, so after the run the result array is `G`.
-/
import proofs.«419090_j3925600108624_3_alg».proof.Proof.Gen.KernelIdeal.Value
import proofs.«419090_j3925600108624_3_alg».proof.Proof.KernelPayload
import proofs.«419090_j3925600108624_3_alg».proof.Proof.Spec
import Idealize.ShloMosaic.Lib.StableHlo.Run
import Idealize.ShloMosaic.Lib.Pipeline.Value
import Idealize.ShloMosaic.Lib.ValueLayout

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx Cert.CdistSoftmax
open Idealize.ShloMosaic.Pipeline (Dat)

variable (m : (ℓ : Loc nD τ sig) → Buf (Elt Ideal) ℓ) (ρ : Dev nD → PrngReg)

/-- The two argument arrays as launched. -/
abbrev Qarr (c : Dev nD) : SIn.Idx → EReal := m ((c : Thread nD τ).loc main_arg0)
abbrev Karr (c : Dev nD) : SIn.Idx → EReal := m ((c : Thread nD τ).loc main_arg1)

theorem hz3 : (![0, 0, 0] : Fin 3 → Nat) = fun _ => 0 := funext fun a => by fin_cases a <;> rfl

/-! ## The key norms the region finds -/

/-- Entry `(b, j)` of a [4, 4096] array with feature `k` put back is `(b, j, k)`. -/
theorem lift_feature (h : S4x4096x64.Reduces [2] S4x4096) (b : Fin 4) (j : Fin 4096) (k : Fin (S4x4096x64.size 2)) :
    h.lift (ix2 b j) k = ix3 b j (⟨k.val, k.isLt⟩ : Fin 64) := by
  funext c; apply Fin.ext
  fin_cases c <;> rfl

/-- The third window's array at region entry: the host's sum of squares of each key, as a [4, 1, 4096] array. -/
theorem keyNorm_entry (c : Dev nD) (b : Fin 4) (u : Fin 1) (j : Fin 4096) :
    (V m c main_v3 : S4x1x4096.Idx → EReal) (ix3 b u j)
      = Ideal.ofBits .f32 0x00000000#32 + ∑ d : Fin 64, Karr m c (ix3 b j d) * Karr m c (ix3 b j d) := by
  have e : (V m c main_v3 : S4x1x4096.Idx → EReal)
      = transpose S4x1x4096 [0, 2, 1] (broadcastInDim S4x4096x1 ![0, 1] bcast_S4x4096_S4x4096x1_0_1
          (Host.reduceAdd (F := Ideal) (mulf (Karr m c) (Karr m c)) (constant (F := Ideal) S_ .f32 0x00000000#32) reducesTo_S4x4096x64_S4x4096_d2 h_S_))
        transposes_S4x4096x1_S4x1x4096_0_2_1 := by
    dsimp only [Gen.V, Gen.hostOps0]; after_results
  rw [e]
  refine (transpose_ix3_021_apply _ transposes_S4x4096x1_S4x1x4096_0_2_1 b u j).trans ?_
  refine (broadcastInDim_apply _ bcast_S4x4096_S4x4096x1_0_1 _ (ix3 b j u) (ix2 b j) (fun a => match a with
    | ⟨0, _⟩ => by show b.val = if (4 : Nat) = 1 then 0 else b.val; rw [if_neg (by decide)]
    | ⟨1, _⟩ => by show j.val = if (4096 : Nat) = 1 then 0 else j.val; rw [if_neg (by decide)])).trans ?_
  simp only [Host.reduceAdd, Ideal.hostReduceAdd_def]
  rw [Ideal.hostReduceAdd_single reducesTo_S4x4096x64_S4x4096_d2 (by decide)]
  refine congrArg₂ (· + ·) rfl (Finset.sum_congr rfl fun k _ => ?_)
  rw [lift_feature]; rfl

/-! ## One grid point -/

/-- The body's store for blocks that are rows `row p` of batch `b` of the queries, batch `b` of the keys and batch
    `b`'s key norms: at `(u, p, j)` it is `G` at `(b, row p, j)`. -/
theorem point_eq (Q K : SIn.Idx → EReal) (k2 : S4x1x4096.Idx → EReal)
    (hk2 : ∀ (b : Fin 4) (u : Fin 1) (j : Fin 4096),
      k2 (ix3 b u j) = Ideal.ofBits .f32 0x00000000#32 + ∑ d : Fin 64, K (ix3 b j d) * K (ix3 b j d))
    (x0 : Vec Ideal S1x256x64 .f32) (x1 : Vec Ideal S1x4096x64 .f32) (x2 : Vec Ideal S1x1x4096 .f32)
    (b : Fin 4) (row : Fin 256 → Fin 4096)
    (h0 : ∀ (p : Fin 256) (d : Fin 64), x0 (ix3 (0 : Fin 1) p d) = Q (ix3 b (row p) d))
    (h1 : ∀ (j : Fin 4096) (d : Fin 64), x1 (ix3 (0 : Fin 1) j d) = K (ix3 b j d))
    (h2 : ∀ j : Fin 4096, x2 (ix3 (0 : Fin 1) (0 : Fin 1) j) = k2 (ix3 b (0 : Fin 1) j))
    (u : Fin 1) (p : Fin 256) (j : Fin 4096) :
    k0_pay1 (F := Ideal) x0 x1 x2 (ix3 u p j) = Gat Q K b (row p) j := by
  rw [Payload.pay_apply]
  have hw : ∀ j', Payload.weight x0 x1 x2 p j' = CdistSoftmax.weight Q K b (row p) j' := fun j' => by
    unfold Payload.weight CdistSoftmax.weight CdistSoftmax.dist CdistSoftmax.sqNorm CdistSoftmax.inner
    simp only [h0, h1, h2, hk2, Ideal.ofBits_zero_f32, zero_add]
  unfold Gat
  simp only [hw]

/-! ## The index maps over the grid -/

/-- The printed index maps, decided over the 64 points: the query window moves with the output window on the batch
    and row axes, the key and key-norm windows on the batch axis only; every other block index is zero. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (2 : Fin 3) = 0 ∧ win0_3.index t (0 : Fin 3) ≤ 3 ∧ win0_3.index t (1 : Fin 3) ≤ 15 :=
  (by decide +kernel : ∀ t : Fin grid0.N, _)

/-- Every (batch, row block) pair is some point's output block. -/
theorem idx_onto : ∀ (q0 : Fin 4) (q1 : Fin 16), ∃ t : Fin cfg0.N, win0_3.index t = ![q0.val, q1.val, 0] :=
  (by decide +kernel : ∀ (q0 : Fin 4) (q1 : Fin 16), ∃ t : Fin grid0.N, win0_3.index t = ![q0.val, q1.val, 0])

/-! ## What a point writes back -/

/-- WHAT POINT `t` WRITES BACK is block `t` of `G` of the two arguments. -/
theorem flushed_eq (c : Dev nD) (t : Fin cfg0.N) :
    (dats m 0 c).flushed 3 t = ((cfg0.win 3).blk t).view.read (Elt Ideal) (G (Qarr m c) (Karr m c)) := by
  rw [Value.flushed3]
  unfold out0_3
  rw [View.canon_unit_zero hz3]
  simp only [View.ld_unit_zero (S := S1x256x64) hz3, View.ld_unit_zero (S := S1x4096x64) hz3, View.ld_unit_zero (S := S1x1x4096) hz3]
  obtain ⟨e00, e01, e02, e10, e11, e12, e20, e21, e22, e32, b0, b1⟩ := idx_facts t
  funext y
  obtain ⟨u, p, j, rfl⟩ : ∃ (u : Fin 1) (p : Fin 256) (j : Fin 4096), y = ix3 u p j := ⟨y 0, y 1, y 2, eq_ix3 y⟩
  have hu : u.val = 0 := by have := u.isLt; omega
  show k0_pay1 (F := Ideal) (iblk m c 0 t) (iblk m c 1 t) (iblk m c 2 t) (ix3 u p j)
    = G (Qarr m c) (Karr m c) (((cfg0.win 3).blk t).view.emb (ix3 u p j))
  have hb : win0_3.index t (0 : Fin 3) < 4 := by omega
  have hrow : ∀ q : Fin 256, win0_3.index t (1 : Fin 3) * 256 + q.val < 4096 := fun q => by have := q.isLt; omega
  refine (point_eq (Qarr m c) (Karr m c) (V m c main_v3) (keyNorm_entry m c) (iblk m c 0 t) (iblk m c 1 t) (iblk m c 2 t)
      ⟨win0_3.index t (0 : Fin 3), hb⟩ (fun q => ⟨win0_3.index t (1 : Fin 3) * 256 + q.val, hrow q⟩) ?_ ?_ ?_ u p j).trans ?_
  · -- the query block is rows 256·qi … of batch b of the queries
    intro q d
    unfold iblk
    rw [View.read_apply]
    show V m c main_arg0 _ = _
    rw [V_main_arg0]
    refine congrArg (Qarr m c) (funext fun a => Fin.ext ?_)
    match a with
    | ⟨0, _⟩ => show win0_0.index t (0 : Fin 3) * 1 + 1 * 0 = win0_3.index t (0 : Fin 3); omega
    | ⟨1, _⟩ => show win0_0.index t (1 : Fin 3) * 256 + 1 * q.val = win0_3.index t (1 : Fin 3) * 256 + q.val; omega
    | ⟨2, _⟩ => show win0_0.index t (2 : Fin 3) * 64 + 1 * d.val = d.val; omega
  · -- the key block is batch b of the keys
    intro k d
    unfold iblk
    rw [View.read_apply]
    show V m c main_arg1 _ = _
    rw [V_main_arg1]
    refine congrArg (Karr m c) (funext fun a => Fin.ext ?_)
    match a with
    | ⟨0, _⟩ => show win0_1.index t (0 : Fin 3) * 1 + 1 * 0 = win0_3.index t (0 : Fin 3); omega
    | ⟨1, _⟩ => show win0_1.index t (1 : Fin 3) * 4096 + 1 * k.val = k.val; omega
    | ⟨2, _⟩ => show win0_1.index t (2 : Fin 3) * 64 + 1 * d.val = d.val; omega
  · -- the norm block is batch b's row of key norms
    intro k
    unfold iblk
    rw [View.read_apply]
    show V m c main_v3 _ = _
    refine congrArg (V m c main_v3) (funext fun a => Fin.ext ?_)
    match a with
    | ⟨0, _⟩ => show win0_2.index t (0 : Fin 3) * 1 + 1 * 0 = win0_3.index t (0 : Fin 3); omega
    | ⟨1, _⟩ => show win0_2.index t (1 : Fin 3) * 1 + 1 * 0 = 0; omega
    | ⟨2, _⟩ => show win0_2.index t (2 : Fin 3) * 4096 + 1 * k.val = k.val; omega
  · -- the output block puts (u, p, j) at (b, 256·qi + p, j)
    refine (G_ix3 _ _ _ _ _).symm.trans (congrArg (G (Qarr m c) (Karr m c)) (funext fun a => Fin.ext ?_))
    match a with
    | ⟨0, _⟩ => show win0_3.index t (0 : Fin 3) = win0_3.index t (0 : Fin 3) * 1 + 1 * u.val; omega
    | ⟨1, _⟩ => show win0_3.index t (1 : Fin 3) * 256 + p.val = win0_3.index t (1 : Fin 3) * 256 + 1 * p.val; omega
    | ⟨2, _⟩ => show j.val = win0_3.index t (2 : Fin 3) * 4096 + 1 * j.val; omega

/-! ## The blocks tile the result -/

/-- An index of the result is in point `t`'s block iff each coordinate is in the block's range on its axis. -/
theorem mem_blk (t : Fin cfg0.N) (i : S4x4096x4096.Idx) :
    i ∈ ((cfg0.win 3).blk t).view.set ↔ ∀ a : Fin 3, win0_3.index t a * S1x256x4096.size a ≤ (i a).val
      ∧ (i a).val < win0_3.index t a * S1x256x4096.size a + S1x256x4096.size a := by
  show i ∈ ((View.whole main_v4).slice (win0_3.rect t)).set ↔ _
  rw [View.set_slice_whole, Rect.mem_set_unit]
  exact Iff.rfl

/-- Every index of the result is in some point's block: batch `i 0`, row block `i 1 / 256`. -/
theorem covered (i : S4x4096x4096.Idx) :
    ∃ t : Fin cfg0.N, (cfg0.win 3).flush t = true ∧ i ∈ ((cfg0.win 3).blk t).view.set := by
  have hi0 : (i 0).val < 4 := (i 0).isLt
  have hi1 : (i 1).val < 4096 := (i 1).isLt
  have hi2 : (i 2).val < 4096 := (i 2).isLt
  obtain ⟨t, ht⟩ := idx_onto ⟨(i 0).val, hi0⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 4096 ≤ (i 2).val ∧ (i 2).val < win0_3.index t (2 : Fin 3) * 4096 + 4096; omega

/-- THE RESULT ARRAY after the run is `G` of the two arguments. -/
theorem final (c : Dev nD) : (dats m 0 c).arrAt 3 cfg0.N = G (Qarr m c) (Karr m c) :=
  (dats m 0 c).arrAt_eq_of_cover 3 (G (Qarr m c) (Karr m c)) (fun t _ => flushed_eq m c t) covered

/-- The kernel's run, read: the result at `G` of the arguments, the arguments unchanged. -/
theorem run : θ_run defs (onTc (τ := τ) (main (F := Ideal))) ⟨m, fun _ => 0, ρ⟩ fun r => ∀ c : Dev nD,
      r.2.mem ((c : Thread nD τ).loc main_v4) = G (Qarr m c) (Karr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.RefValue.lean ====
/-
  The reference, read: with real inputs its result is `G`.

  The reference computes the distance of query `n` from key `j` by the same expansion as the kernel (its two norm
  sums and its product carry an initial zero, which adds nothing), the score `(-dist) / 8`, the row's largest score
  `M` (a fold of `max` from `-∞` over the 4096 keys, then once more against `-∞`), and the weights
  `exp (s - M) / (0 + ∑ exp (s - M))`. Every distance of real inputs is a real number, so every score is, so `M` —
  above one of them and below `+∞` — is, and the row law (SoftmaxRow.lean) turns the shifted quotient into the
  kernel's product with the reciprocal of the unshifted sum: `G`.
-/
import proofs.«419090_j3925600108624_3_alg».proof.Proof.Gen.ReferenceIdeal.Read
import proofs.«419090_j3925600108624_3_alg».proof.Proof.Spec
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.CdistSoftmax

variable (Q K : SIn.Idx → EReal)

/-! ## The distance and the score -/

/-- The reference's square-root stage at `(b, n, j)` is the distance of query `n` from key `j`. -/
theorem dist_stage (b : Fin 4) (n j : Fin 4096) :
    val_main_v15 (F := Ideal) Q K (ix3 b n j) = CdistSoftmax.dist Q K b n j := by
  have e1 : ∀ k : Fin 64, idx_main_v1 (idx_main_v2 (idx_main_v7 (ix3 b n j))) k = ix3 b n k := fun k =>
    funext fun a => Fin.ext (by match a with | ⟨0, _⟩ => rfl | ⟨1, _⟩ => rfl | ⟨2, _⟩ => rfl)
  have e4 : ∀ k : Fin 64, idx_main_v4 (idx_main_v5 (idx_main_v8 (ix3 b n j))) k = ix3 b j k := fun k =>
    funext fun a => Fin.ext (by match a with | ⟨0, _⟩ => rfl | ⟨1, _⟩ => rfl | ⟨2, _⟩ => rfl)
  have el : ∀ k : Fin 64, lidx_main_v6 (ix3 b n j) k = ix3 b n k := fun k =>
    funext fun a => Fin.ext (by match a with | ⟨0, _⟩ => rfl | ⟨1, _⟩ => rfl | ⟨2, _⟩ => rfl)
  have er : ∀ k : Fin 64, ridx_main_v6 (ix3 b n j) k = ix3 b j k := fun k =>
    funext fun a => Fin.ext (by match a with | ⟨0, _⟩ => rfl | ⟨1, _⟩ => rfl | ⟨2, _⟩ => rfl)
  unfold CdistSoftmax.dist CdistSoftmax.sqNorm CdistSoftmax.inner
  rw [val_main_v15_apply, val_main_v14_apply, val_main_v12_apply, val_main_v9_apply, val_main_v7_apply, val_main_v2_apply,
    val_main_v1_apply, val_main_v8_apply, val_main_v5_apply, val_main_v4_apply, val_main_v11_apply, val_main_v10_apply,
    val_main_v6_apply, val_main_v13_apply]
  simp only [val_main_v0_apply, val_main_v3_apply, val_main_cst_apply, val_main_cst_0_apply, val_main_cst_1_apply,
    val_main_cst_2_apply, e1, e4, el, er, Ideal.hostUnary_sqrt_def, Ideal.maximumf_def, Ideal.subf_def, Ideal.addf_def,
    Ideal.mulf_def, Ideal.ofBits_def, Ideal.ofBits_zero_f32, zero_add]

/-- The score: minus the distance, over eight. -/
theorem score_stage (b : Fin 4) (n j : Fin 4096) :
    val_main_v18 (F := Ideal) Q K (ix3 b n j) = Ideal.div (-(CdistSoftmax.dist Q K b n j)) (Ideal.ofBits .f32 0x41000000#32) := by
  rw [val_main_v18_apply, val_main_v16_apply, val_main_v17_apply, dist_stage]
  simp only [val_main_cst_3_apply, Ideal.hostDivf_def, Ideal.hostNegf_def, Ideal.negf_def, Ideal.ofBits_def]

/-- The score of a real distance is a real number. -/
theorem score_isReal {D : EReal} (hD : IsReal D) : IsReal (Ideal.div (-D) (Ideal.ofBits .f32 0x41000000#32)) := by
  obtain ⟨d, rfl⟩ := hD
  rw [ofBits_eight, Ideal.div_coe (by norm_num : (8 : ℝ) ≠ 0), ← EReal.coe_neg, ← EReal.coe_mul]
  exact ⟨_, rfl⟩

/-! ## The row's largest score -/

/-- Entry `(b, n)` of a [4, 4096] array with key `k` put back is `(b, n, k)`. -/
theorem lift_key (h : S4x4096x4096.Reduces [2] S4x4096) (b : Fin 4) (n : Fin 4096) (k : Fin (S4x4096x4096.size 2)) :
    h.lift (ix2 b n) k = ix3 b n (⟨k.val, k.isLt⟩ : Fin 4096) := by
  funext c; apply Fin.ext
  fin_cases c <;> rfl

/-- The shift the reference subtracts from row `(b, n)`'s scores: the fold of `max` from `-∞` over the row's scores. -/
theorem rowMax_stage (b : Fin 4) (n : Fin 4096) :
    val_main_v21 (F := Ideal) Q K (ix2 b n)
      = max (Ideal.ofBits .f32 0xFF800000#32)
          ((Finset.univ : Finset (Fin 4096)).fold max (Ideal.ofBits .f32 0xFF800000#32)
            (fun k => val_main_v18 (F := Ideal) Q K (ix3 b n k))) := by
  rw [val_main_v21_apply, val_main_v20_apply]
  unfold val_main_v19
  rw [Host.reduce_eq_fold_single FloatOps.maximumf _ _ reducesTo_S4x4096x4096_S4x4096_d2 (by decide) h_S_]
  have hf : (val_main_v18 (F := Ideal) Q K ∘ Shape.Reduces.lift (by decide : S4x4096x4096.Reduces [2] S4x4096) (ix2 b n))
      = fun k : Fin 4096 => val_main_v18 (F := Ideal) Q K (ix3 b n k) :=
    funext fun k => congrArg (val_main_v18 (F := Ideal) Q K) (lift_key _ b n k)
  rw [hf]
  rfl

/-! ## The result -/

/-- With real inputs the reference's result is `G` of them. -/
theorem result_eq (hQ : ∀ i, IsReal (Q i)) (hK : ∀ i, IsReal (K i)) : val_main_v29 (F := Ideal) Q K = G Q K := by
  funext i
  obtain ⟨b, n, j, rfl⟩ : ∃ (b : Fin 4) (n j : Fin 4096), i = ix3 b n j := ⟨i 0, i 1, i 2, eq_ix3 i⟩
  rw [G_ix3]
  unfold Gat CdistSoftmax.weight
  have hD : ∀ k, IsReal (CdistSoftmax.dist Q K b n k) := dist_isReal Q K hQ hK b n
  -- the shift is a real number: the largest of 4096 real scores
  have hM : IsReal (val_main_v21 (F := Ideal) Q K (ix2 b n)) := by
    rw [rowMax_stage, ofBits_neg_inf, max_eq_right bot_le]
    refine IsReal.fold_max _ fun k => ?_
    rw [score_stage]; exact score_isReal (hD k)
  have e22 : ∀ k : Fin 4096, idx_main_v22 (idx_main_v23 (ix3 b n k)) = ix2 b n := fun k =>
    funext fun a => Fin.ext (by match a with | ⟨0, _⟩ => rfl | ⟨1, _⟩ => rfl)
  have e26 : ∀ k : Fin 4096, idx_main_v26 (idx_main_v27 (idx_main_v28 (ix3 b n j))) k = ix3 b n k := fun k =>
    funext fun a => Fin.ext (by match a with | ⟨0, _⟩ => rfl | ⟨1, _⟩ => rfl | ⟨2, _⟩ => rfl)
  have hnum : ∀ k : Fin 4096, val_main_v25 (F := Ideal) Q K (ix3 b n k)
      = Ideal.exp (Ideal.div (-(CdistSoftmax.dist Q K b n k)) (Ideal.ofBits .f32 0x41000000#32) - val_main_v21 (F := Ideal) Q K (ix2 b n)) :=
    fun k => by
      rw [val_main_v25_apply, val_main_v24_apply, val_main_v23_apply, val_main_v22_apply, score_stage, e22]
      simp only [Ideal.hostUnary_exp_def, Ideal.subf_def]
  rw [val_main_v29_apply, val_main_v28_apply, val_main_v27_apply, val_main_v26_apply]
  simp only [e26, hnum, val_main_cst_6_apply, Ideal.hostDivf_def, Ideal.ofBits_def]
  exact softmax_row (fun k => CdistSoftmax.dist Q K b n k) hD _ hM j

end Cert.ReferenceIdeal.RefValue

end
-- ==== Proof.Finite.lean ====
/-
  The precondition, read: every entry of the two inputs is a real number.

  The precondition is the conjunction of two `all`s, one per input: every entry's absolute value is below `+∞`.
  On the extended reals the absolute value of either infinity is `+∞`, which is not below itself; so an entry that
  passes is neither infinity: a real number.
-/
import proofs.«419090_j3925600108624_3_alg».proof.Pre_finite_inputs
import proofs.«419090_j3925600108624_3_alg».proof.Proof.Gen.Pre_finite_inputs
import proofs.«419090_j3925600108624_3_alg».proof.Proof.SoftmaxRow
import Idealize.ShloMosaic.Lib.ReduceAll
import Idealize.ShloMosaic.Lib.ValueIdx
import Idealize.ShloMosaic.PureOps.Ideal.Laws

noncomputable section

namespace Cert.Pre_finite_inputs.Finite

open Cert.Pre_finite_inputs Cert.Pre_finite_inputs.Gen Idealize.ShloMosaic Cert.CdistSoftmax

instance : Subsingleton S_.Idx := ⟨fun a b => funext fun d => d.elim0⟩

/-- The pattern of `+∞` denotes the top of the extended reals. -/
theorem ofBits_pos_inf : Ideal.ofBits .f32 0x7F800000#32 = ⊤ := by
  simp [Ideal.ofBits, Ideal.ieee]

/-- An extended real whose absolute value compares below `+∞` is a real number. -/
theorem isReal_of_abs_lt (x : EReal) (h : Ideal.cmp .olt (max x (-x)) (Ideal.ofBits .f32 0x7F800000#32) = 1#1) : IsReal x := by
  rw [ofBits_pos_inf] at h
  induction x using EReal.rec with
  | bot => simp [Ideal.cmp] at h
  | top => simp [Ideal.cmp] at h
  | coe r => exact IsReal.coe r

/-- THE PRECONDITION GIVES REAL INPUTS. -/
theorem isReal_of_pre (a0 a1 : FVec Ideal S4x4096x64 .f32) (h : fn (F := Ideal) a0 a1 = fun _ => 1#1) :
    (∀ i, IsReal (a0 i)) ∧ (∀ i, IsReal (a1 i)) := by
  have h0 := congrFun h ValueIdx.ix0
  dsimp only [fn] at h0
  obtain ⟨h3, h7⟩ := IntOp.andi_eq_one.1 h0
  exact ⟨fun i => isReal_of_abs_lt _ (Host.reduce_andi_all _ _ _ _ _ h3 i),
    fun i => isReal_of_abs_lt _ (Host.reduce_andi_all _ _ _ _ _ h7 i)⟩

end Cert.Pre_finite_inputs.Finite

end
-- ==== Proof.lean ====
/-
  A softmax over Euclidean distances, computed two ways, agrees on the extended reals for finite inputs.

  The kernel, for each batch `b` and each tile of 256 queries, forms the distance of every query `n` of the tile
  from every key `j` by the expansion `‖q‖² + ‖k‖² - 2⟨q, k⟩` (the key norms computed once outside, the product on
  bf16 copies of the operands, which on the extended reals are the operands), clamps it at zero, takes the root,
  and writes the weight `exp (-dist/8)` times the reciprocal of the weights' row sum: no shift by the row's largest
  score. The reference is `softmax (-dist / 8)` over the keys, which does shift: `exp (s - M) / ∑ exp (s - M)`.

  The proof sets both against one function `G` of the two inputs (Proof/Spec.lean), index by index.
  * The kernel's result array is `G` for ANY inputs: the store at an index (Proof/KernelPayload.lean), the blocks
    as rows of the arguments and of the key norms, and the 64 output blocks tiling the result (Proof/KernelValue.lean).
  * The reference's result is `G` when every input entry is a real number (Proof/RefValue.lean): then every distance
    is real, every score is, the row's largest score is, and the common factor `1 / exp M` cancels from the
    quotient (Proof/SoftmaxRow.lean). With an infinite entry the law fails (a shift by `±∞` is not undone), which is
    why the precondition is used: it says exactly that every entry is real (Proof/Finite.lean).
  The three frames are the generated ones; the idealization rewrote nothing, so `preserves` has nothing to state.
-/
import proofs.«419090_j3925600108624_3_alg».proof.Defs
import proofs.«419090_j3925600108624_3_alg».proof.Proof.Gen.Kernel
import proofs.«419090_j3925600108624_3_alg».proof.Proof.Gen.Kernel.Skeleton
import proofs.«419090_j3925600108624_3_alg».proof.Proof.Gen.Kernel.Launch
import proofs.«419090_j3925600108624_3_alg».proof.Proof.Gen.Kernel.Points
import proofs.«419090_j3925600108624_3_alg».proof.Proof.Gen.Kernel.Frame
import proofs.«419090_j3925600108624_3_alg».proof.Proof.Gen.KernelIdeal
import proofs.«419090_j3925600108624_3_alg».proof.Proof.Gen.KernelIdeal.Skeleton
import proofs.«419090_j3925600108624_3_alg».proof.Proof.Gen.KernelIdeal.Launch
import proofs.«419090_j3925600108624_3_alg».proof.Proof.Gen.KernelIdeal.Points
import proofs.«419090_j3925600108624_3_alg».proof.Proof.Gen.KernelIdeal.Frame
import proofs.«419090_j3925600108624_3_alg».proof.Proof.Gen.ReferenceIdeal
import proofs.«419090_j3925600108624_3_alg».proof.Proof.Gen.Pre_finite_inputs
import proofs.«419090_j3925600108624_3_alg».proof.Proof.Gen.KernelIdeal.Value
import proofs.«419090_j3925600108624_3_alg».proof.Proof.Gen.ReferenceIdeal.Run
import proofs.«419090_j3925600108624_3_alg».proof.Proof.Gen.ReferenceIdeal.Read
import proofs.«419090_j3925600108624_3_alg».proof.Proof.KernelValue
import proofs.«419090_j3925600108624_3_alg».proof.Proof.RefValue
import proofs.«419090_j3925600108624_3_alg».proof.Proof.Finite
import Idealize.ShloMosaic.Adequacy
import Idealize.ShloMosaic.Init

noncomputable section

namespace Cert.Proof

open Idealize.ShloMosaic Idealize.SL.Sem Cert.CdistSoftmax

/-- The kernel as printed runs and leaves its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two inputs, both programs end with `G` of them in the result: the kernel for
    any inputs, the reference because the precondition makes every entry a real number. -/
theorem algebraic : Cert.algebraic_KernelIdeal_ReferenceIdeal := by
  intro m ρ m' ρ' hpre hagree
  refine ⟨fun c => G (Cert.KernelIdeal.ArrayValue.Qarr m c) (Cert.KernelIdeal.ArrayValue.Karr m c),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, (hagree c).1, (hagree c).2]
  obtain ⟨hQ, hK⟩ := Cert.Pre_finite_inputs.Finite.isReal_of_pre _ _ (hpre c)
  exact Cert.ReferenceIdeal.RefValue.result_eq _ _ hQ hK

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
